-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S128x32 : Shape := ⟨2, ![128, 32]⟩
abbrev S128 : Shape := ⟨1, ![128]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S1048576x32 .f32) (main_arg1 : FVec F S128x32 .f32) (main_arg2 : FVec F S128 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S1048576x32 : Shape := ⟨2, ![1048576, 32]⟩
abbrev S128x32 : Shape := ⟨2, ![128, 32]⟩
abbrev S128 : Shape := ⟨1, ![128]⟩
abbrev S32x128 : Shape := ⟨2, ![32, 128]⟩
abbrev S_ : Shape := ⟨0, ![]⟩
abbrev S1x128 : Shape := ⟨2, ![1, 128]⟩
abbrev S1048576x128 : Shape := ⟨2, ![1048576, 128]⟩
abbrev S4096x32 : Shape := ⟨2, ![4096, 32]⟩
abbrev S4096x128 : Shape := ⟨2, ![4096, 128]⟩
abbrev S4096 : Shape := ⟨1, ![4096]⟩
abbrev S4096x1 : Shape := ⟨2, ![4096, 1]⟩

abbrev nBuf : Space → Nat
  | .hbm => 14
  | .vmem => 7
  | .smem => 0
  | _ => 0

abbrev bufTy : (tb : Table) → Fin (tcTables nBuf tb) → BufTy
  | .hbm, ⟨0, _⟩ => ⟨S1048576x32, .f32⟩
  | .hbm, ⟨1, _⟩ => ⟨S128x32, .f32⟩
  | .hbm, ⟨2, _⟩ => ⟨S128, .f32⟩
  | .hbm, ⟨3, _⟩ => ⟨S32x128, .f32⟩
  | .hbm, ⟨4, _⟩ => ⟨S128x32, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S1048576x128, .f32⟩
  | .local _ .vmem, ⟨0, _⟩ => ⟨S4096x32, .f32⟩
  | .local _ .vmem, ⟨1, _⟩ => ⟨S4096x32, .f32⟩
  | .local _ .vmem, ⟨2, _⟩ => ⟨S32x128, .f32⟩
  | .local _ .vmem, ⟨3, _⟩ => ⟨S1x128, .f32⟩
  | .local _ .vmem, ⟨4, _⟩ => ⟨S1x128, .f32⟩
  | .local _ .vmem, ⟨5, _⟩ => ⟨S4096x128, .f32⟩
  | .local _ .vmem, ⟨6, _⟩ => ⟨S4096x128, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x32_S32x128_1_0 : S128x32.Transposes [1, 0] S32x128
  reducesTo_S128x32_S128_d1 : S128x32.ReducesTo [1] S128
  h_S_ : 0 < S_.numel
  shapeCasts_S128_S1x128 : S128.ShapeCasts S1x128
  bcast_S_S128 : S_.BroadcastsInDim S128 (![] : Fin 0 → Fin S128.rank)
  inb_S4096x32_S4096x32_0_0 : ∀ a, (![0, 0] : Fin 2 → Nat) a + S4096x32.size a ≤ S4096x32.size a
  h_S4096x32 : 0 < S4096x32.numel
  reduces_S4096x32_S4096 : S4096x32.Reduces [1] S4096
  shapeCasts_S4096_S4096x1 : S4096.ShapeCasts S4096x1
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4096x1_S4096x128 : S4096x1.Broadcasts S4096x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S4096x32_S32x128_S4096x128_1_0_0_1_n_n_wf : DotDims.WF S4096x32 S32x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S1048576x32.size a
  hwx0_0 : ∀ i : grid0.Coords, EltTy.bits .f32 = 32 ∨ (Rect.block (s := S1048576x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S1048576x128.size a
  hwx0_4 : ∀ i : grid0.Coords, EltTy.bits .f32 = 32 ∨ (Rect.block (s := S1048576x128) S4096x128.size (cc0_transform_4 i) (hinb0_4 i)).WholeWords (EltTy.packing .f32)

variable [Facts₀]

def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S128x32 : Shape := ⟨2, ![128, 32]⟩
abbrev S128 : Shape := ⟨1, ![128]⟩
abbrev S_ : Shape := ⟨0, ![]⟩
abbrev S1048576 : Shape := ⟨1, ![1048576]⟩
abbrev S1048576x1 : Shape := ⟨2, ![1048576, 1]⟩
abbrev S1048576x128 : Shape := ⟨2, ![1048576, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S128x32, .f32⟩
  | .hbm, ⟨2, _⟩ => ⟨S128, .f32⟩
  | .hbm, ⟨3, _⟩ => ⟨S1048576x32, .f32⟩
  | .hbm, ⟨4, _⟩ => ⟨S_, .f32⟩
  | .hbm, ⟨5, _⟩ => ⟨S1048576, .f32⟩
  | .hbm, ⟨6, _⟩ => ⟨S1048576x1, .f32⟩
  | .hbm, ⟨7, _⟩ => ⟨S128x32, .f32⟩
  | .hbm, ⟨8, _⟩ => ⟨S_, .f32⟩
  | .hbm, ⟨9, _⟩ => ⟨S128, .f32⟩
  | .hbm, ⟨10, _⟩ => ⟨S1048576x128, .f32⟩
  | .hbm, ⟨11, _⟩ => ⟨S_, .f32⟩
  | .hbm, ⟨12, _⟩ => ⟨S1048576x128, .f32⟩
  | .hbm, ⟨13, _⟩ => ⟨S1048576x128, .f32⟩
  | .hbm, ⟨14, _⟩ => ⟨S1048576x128, .f32⟩
  | .hbm, ⟨15, _⟩ => ⟨S1048576x128, .f32⟩
  | .hbm, ⟨16, _⟩ => ⟨S1x128, .f32⟩
  | .hbm, ⟨17, _⟩ => ⟨S1048576x128, .f32⟩
  | .hbm, ⟨18, _⟩ => ⟨S1048576x128, .f32⟩
  | .hbm, ⟨19, _⟩ => ⟨S_, .f32⟩
  | .hbm, ⟨20, _⟩ => ⟨S1048576x128, .f32⟩
  | .hbm, ⟨21, _⟩ => ⟨S1048576x128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1048576x128, .f32⟩
  | .hbm, ⟨27, _⟩ => ⟨S1x128, .f32⟩
  | .hbm, ⟨28, _⟩ => ⟨S1048576x128, .f32⟩
  | .hbm, ⟨29, _⟩ => ⟨S1048576x128, .f32⟩
  | .hbm, ⟨30, _⟩ => ⟨S1048576x128, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  reducesTo_S128x32_S128_d1 : S128x32.ReducesTo [1] S128
  bcast_S_S1048576x128 : S_.BroadcastsInDim S1048576x128 (![] : Fin 0 → Fin S1048576x128.rank)
  bcast_S1048576x1_S1048576x128_0_1 : S1048576x1.BroadcastsInDim S1048576x128 (![0, 1] : Fin 2 → Fin S1048576x128.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S128 : S_.BroadcastsInDim S128 (![] : Fin 0 → Fin S128.rank)
  dot_S1048576x32_S128x32_S1048576x128_1_1_0_0_n_n_wf : DotDims.WF S1048576x32 S128x32 S1048576x128 [1] [1] [0] [0] [] []

variable [Facts₀]

def dot_S1048576x32_S128x32_S1048576x128_1_1_0_0_n_n : DotDims S1048576x32 S128x32 S1048576x128 where
  lhsContracting := [1]
  rhsContracting := [1]
  lhsNonContracting := [0]
  rhsNonContracting := [0]
  lhsBatch := []
  rhsBatch := []
  wf := dot_S1048576x32_S128x32_S1048576x128_1_1_0_0_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«174859_j84808424227154_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«174859_j84808424227154_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«174859_j84808424227154_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«174859_j84808424227154_1_alg».proof.Proof.LibRowsDot
import proofs.«174859_j84808424227154_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.RbfSpec.lean ====
/-
  A layer of Gaussian radial basis functions, as a plain function of matrices of extended reals.

  For points `x : [a, K]`, centres `c : [N, K]` and log-widths `ls : [N]`, the layer's entry at the point `r` and
  the centre `q` is

      exp (-(max (‖x_r‖² - 2 · ⟨x_r, c_q⟩ + ‖c_q‖²) 0) · exp (-2 · ls_q)),

  the squared distance `‖x_r - c_q‖²` written through the inner product and clamped at zero from below, scaled by
  the inverse variance `1 / σ_q² = exp (-2 · log σ_q)`. The constants `2`, `0` and `-2` are kept as the words the
  programs write; only the zero word is ever evaluated (`0 + s = s`, `0 - y = -y`).

  Everything is stated entry by entry, so that it reads the same on a block of points and on the whole matrix: the
  entry at `(r, q)` depends on `x` only through its row `r` (`rbfEntry_congr`).
-/
import Idealize.ShloMosaic.Lib.Pipeline.Value
import Idealize.ShloMosaic.Lib.ValueIdx
import Idealize.ShloMosaic.PureOps.Ideal.Laws
import proofs.«174859_j84808424227154_1_alg».proof.Proof.LibRowsDims

noncomputable section

namespace Cert.RadialBasis

open Idealize.ShloMosaic Idealize.ShloMosaic.ValueIdx
open Cert.DenseLayer (Mat prodRow)
open Cert.DenseRows (prodRowT)

variable {a K N : ℕ}

/-- A vector of `n` extended reals, indexed as the arrays are. -/
abbrev Row (n : ℕ) : Type := (⟨1, ![n]⟩ : Shape).Idx → EReal

/-- The squared length of row `r` of `x`: the sum over `k` of `x (r, k)²`. -/
def sqLen (x : Mat a K) (r : Fin a) : EReal := ∑ k : Fin K, x (ix2 r k) * x (ix2 r k)

/-- The squared length of a row depends only on that row. -/
theorem sqLen_congr {a' : ℕ} (x : Mat a K) (x' : Mat a' K) (r : Fin a) (r' : Fin a')
    (h : ∀ k, x (ix2 r k) = x' (ix2 r' k)) : sqLen x r = sqLen x' r' :=
  Finset.sum_congr rfl fun k _ => by rw [h k]

/-- The inverse variance of centre `q`: `exp (-2 · ls q)`. -/
def invVar (ls : Row N) (q : Fin N) : EReal := Ideal.exp (Ideal.ofBits .f32 0xC0000000#32 * ls (ix1 q))

/-- One entry of the layer from its four ingredients: the point's squared length `s`, its inner product `d` with
    the centre, the centre's squared length `t` and the centre's inverse variance `v`. -/
def rbfEntry (s d t v : EReal) : EReal :=
  Ideal.exp (-(max (s - Ideal.ofBits .f32 0x40000000#32 * d + t) (Ideal.ofBits .f32 0x00000000#32)) * v)

/-- The layer: at `(r, q)` the entry of point `r` and centre `q`. -/
def rbf (x : Mat a K) (c : Mat N K) (ls : Row N) : Mat a N :=
  fun i => rbfEntry (sqLen x (i 0)) (prodRowT x c (i 0) (i 1)) (sqLen c (i 1)) (invVar ls (i 1))

theorem rbf_apply (x : Mat a K) (c : Mat N K) (ls : Row N) (r : Fin a) (q : Fin N) :
    rbf x c ls (ix2 r q) = rbfEntry (sqLen x r) (prodRowT x c r q) (sqLen c q) (invVar ls q) := rfl

/-- The zero word is the additive zero: a sum started from it is the sum. -/
theorem zero_word_add (s : EReal) : Ideal.ofBits .f32 0x00000000#32 + s = s := by
  rw [Ideal.ofBits_zero_f32, zero_add]

/-- Subtracting from the zero word negates, at the infinities too. -/
theorem zero_word_sub (y : EReal) : Ideal.ofBits .f32 0x00000000#32 - y = -y := by
  rw [Ideal.ofBits_zero_f32, zero_sub]

end Cert.RadialBasis

end
-- ==== Proof.ReferenceRbf.lean ====
/-
  The reference program computes the radial-basis layer `rbf`.

  Read one operation at a time, the reference's result at the point `p` and the centre `q` is
  `exp (-(max ((0 + ‖x_p‖²) - 2 · ⟨x_p, c_q⟩ + (0 + ‖c_q‖²)) 0) · exp (-2 · ls_q))`: the two squared lengths are host
  sums started from the zero word, the inner product is a contraction along the second axis of both operands, and the
  broadcasts only move the row sums and the inverse variances to the entries they belong to. Dropping the two zero
  words gives `rbf` entry by entry.
-/
import proofs.«174859_j84808424227154_1_alg».proof.Proof.Gen.ReferenceIdeal.Read
import proofs.«174859_j84808424227154_1_alg».proof.Proof.RbfSpec

noncomputable section

namespace Cert.ReferenceIdeal.RefValue

open Cert.ReferenceIdeal Cert.ReferenceIdeal.Read Idealize.ShloMosaic Idealize.ShloMosaic.ValueIdx
open Cert.RadialBasis Cert.DenseRows

/-- The row of `x` a point's squared length sums over, reached through the two broadcasts of the column of sums. -/
theorem idx_sqLen_points (p : Fin 1048576) (q : Fin 128) (k : Fin 32) :
    idx_main_v1 (idx_main_v2 (idx_main_v8 (ix2 p q))) k = ix2 p k :=
  funext fun a => Fin.ext (by match a with | ⟨0, _⟩ => rfl | ⟨1, _⟩ => rfl)

/-- The row of `c` a centre's squared length sums over, reached through the two broadcasts of the row of sums. -/
theorem idx_sqLen_centres (p : Fin 1048576) (q : Fin 128) (k : Fin 32) :
    idx_main_v4 (idx_main_v10 (idx_main_v11 (ix2 p q))) k = ix2 q k :=
  funext fun a => Fin.ext (by match a with | ⟨0, _⟩ => rfl | ⟨1, _⟩ => rfl)

/-- The contraction reads the point's row of `x` … -/
theorem idx_cross_left (p : Fin 1048576) (q : Fin 128) (k : Fin 32) : lidx_main_v5 (ix2 p q) k = ix2 p k :=
  funext fun a => Fin.ext (by match a with | ⟨0, _⟩ => rfl | ⟨1, _⟩ => rfl)

/-- … against the centre's row of `c`. -/
theorem idx_cross_right (p : Fin 1048576) (q : Fin 128) (k : Fin 32) : ridx_main_v5 (ix2 p q) k = ix2 q k :=
  funext fun a => Fin.ext (by match a with | ⟨0, _⟩ => rfl | ⟨1, _⟩ => rfl)

/-- The inverse variance an entry is scaled by is its centre's. -/
theorem idx_invVar (p : Fin 1048576) (q : Fin 128) : idx_main_v19 (idx_main_v20 (ix2 p q)) = ix1 q :=
  funext fun a => Fin.ext (by match a with | ⟨0, _⟩ => rfl)

/-- The reference's result is the radial-basis layer of its three arguments. -/
theorem reference_eq (x0 : (⟨S1048576x32, .f32⟩ : BufTy).Contents (Elt Ideal)) (x1 : (⟨S128x32, .f32⟩ : BufTy).Contents (Elt Ideal))
    (x2 : (⟨S128, .f32⟩ : BufTy).Contents (Elt Ideal)) :
    val_main_v22 (F := Ideal) x0 x1 x2 = rbf (a := 1048576) (K := 32) (N := 128) x0 x1 x2 := by
  funext i
  obtain ⟨p, q, rfl⟩ : ∃ (p : Fin 1048576) (q : Fin 128), i = ix2 p q := ⟨i 0, i 1, eq_ix2 i⟩
  rw [rbf_apply, val_main_v22_apply, val_main_v21_apply, val_main_v18_apply, val_main_v14_apply, val_main_v12_apply,
    val_main_v9_apply, val_main_v8_apply, val_main_v2_apply, val_main_v1_apply, val_main_v7_apply, val_main_v6_apply,
    val_main_v5_apply, val_main_v11_apply, val_main_v10_apply, val_main_v4_apply, val_main_v13_apply,
    val_main_v20_apply, val_main_v19_apply, val_main_v17_apply, val_main_v16_apply, val_main_v15_apply]
  simp only [val_main_v0_apply, val_main_v3_apply, val_main_cst_apply, val_main_cst_0_apply, val_main_cst_1_apply,
    val_main_cst_2_apply, val_main_cst_3_apply, idx_sqLen_points, idx_sqLen_centres, idx_cross_left, idx_cross_right,
    idx_invVar, Ideal.ofBits_def, Ideal.addf_def, Ideal.subf_def, Ideal.mulf_def, Ideal.maximumf_def,
    Ideal.hostNegf_def, Ideal.negf_def, Ideal.hostUnary_exp_def, zero_word_add]
  rfl

end Cert.ReferenceIdeal.RefValue

end
-- ==== Proof.KernelEntry.lean ====
/-
  One grid point of the kernel: what the body stores, read at an entry of the block.

  The body holds a block `x0 : [4096, 32]` of points, the whole transposed centres `x1 : [32, 128]`, the row
  `x2 : [1, 128]` of the centres' squared lengths and the row `x3 : [1, 128]` of inverse variances. At the point `p` of
  the block and the centre `q` it stores

      exp ((0 - max (‖x0_p‖² - 2 · (x0 · x1) (p, q) + x2 (0, q)) 0) · x3 (0, q)):

  the row sums of `x0 ∘ x0` are set as a column and laid over the 128 columns, the matrix product runs into a zero
  accumulator (the two changes of float format are the identity on the extended reals), and the two rows are laid over
  the 4096 rows.
-/
import proofs.«174859_j84808424227154_1_alg».proof.Proof.Gen.KernelIdeal.Skeleton
import proofs.«174859_j84808424227154_1_alg».proof.Proof.RbfSpec

noncomputable section

namespace Cert.KernelIdeal.Body

open Cert.KernelIdeal Cert.KernelIdeal.Gen Idealize.ShloMosaic Idealize.ShloMosaic.ValueIdx
open Cert.RadialBasis Cert.DenseLayer Cert.DenseRows Cert.ColumnLayout

/-- The body's matrix product contracts the block's second axis with the transposed centres' first. -/
theorem plainDot : PlainDot (a := 4096) (K := 32) (N := 128) dot_S4096x32_S32x128_S4096x128_1_0_0_1_n_n :=
  plainDot_of_axes _ rfl rfl rfl rfl rfl rfl

/-- The column of the block's row sums of squares, laid over the columns: at `(p, q)` the squared length of row `p`. -/
theorem sqLen_laid (x0 : Vec Ideal S4096x32 .f32) (p : Fin 4096) (q : Fin 128) :
    broadcastTo S4096x128 (shapeCast S4096x1 (multiReduction (F := Ideal) .add [1] S4096 (mulf x0 x0) 0x00000000#32
        reduces_S4096x32_S4096 (.inl rfl) rfl) shapeCasts_S4096_S4096x1) broadcasts_S4096x1_S4096x128 (ix2 p q)
      = sqLen (a := 4096) (K := 32) x0 p :=
  (column_over_columns_apply _ shapeCasts_S4096_S4096x1 broadcasts_S4096x1_S4096x128 p q).trans
    (multiReduction_add_rows_apply (mulf x0 x0) 0x00000000#32 reduces_S4096x32_S4096 (.inl rfl) rfl p)

/-- The matrix product of the block with the transposed centres, both passed through a narrower float format, at
    `(p, q)`: row `p` of the block times column `q`. -/
theorem cross_apply (x0 : Vec Ideal S4096x32 .f32) (x1 : Vec Ideal S32x128 .f32) (p : Fin 4096) (q : Fin 128) :
    matmul (F := Ideal) dot_S4096x32_S32x128_S4096x128_1_0_0_1_n_n none (truncf .bf16 x0 bitsLt_bf16_f32)
        (truncf .bf16 (shapeCast S32x128 x1 shapeCasts_S32x128_S32x128) bitsLt_bf16_f32)
        (constant S4096x128 .f32 0x00000000#32) (ix2 p q)
      = prodRow (a := 4096) (K := 32) (N := 128) x0 x1 p q := by
  rw [shapeCast_self]
  exact matmul_zero_apply plainDot none (truncf .bf16 x0 bitsLt_bf16_f32) (truncf .bf16 x1 bitsLt_bf16_f32) (ix2 p q)

/-- A row `[1, 128]` laid over the 4096 rows: at `(p, q)` the row's entry `q`. -/
theorem row_laid (v : Vec Ideal S1x128 .f32) (p : Fin 4096) (q : Fin 128) :
    broadcastTo S4096x128 (shapeCast S1x128 v shapeCasts_S1x128_S1x128) broadcasts_S1x128_S4096x128 (ix2 p q)
      = v (ix2 (0 : Fin 1) q) := by
  rw [shapeCast_self]
  exact broadcastTo_1b_ab_apply v broadcasts_S1x128_S4096x128 p q

/-- What the body stores, at the point `p` of the block and the centre `q`. -/
theorem payload_apply (x0 : Vec Ideal S4096x32 .f32) (x1 : Vec Ideal S32x128 .f32) (x2 x3 : Vec Ideal S1x128 .f32)
    (p : Fin 4096) (q : Fin 128) :
    k0_pay1 (F := Ideal) x0 x1 x2 x3 (ix2 p q)
      = Ideal.exp ((Ideal.ofBits .f32 0x00000000#32
          - max (sqLen (a := 4096) (K := 32) x0 p
                  - Ideal.ofBits .f32 0x40000000#32 * prodRow (a := 4096) (K := 32) (N := 128) x0 x1 p q
                  + x2 (ix2 (0 : Fin 1) q)) (Ideal.ofBits .f32 0x00000000#32))
          * x3 (ix2 (0 : Fin 1) q)) := by
  unfold k0_pay1
  show Ideal.exp ((Ideal.ofBits .f32 0x00000000#32
      - max (broadcastTo S4096x128 (shapeCast S4096x1 (multiReduction .add [1] S4096 (mulf x0 x0) 0x00000000#32
              reduces_S4096x32_S4096 (.inl rfl) rfl) shapeCasts_S4096_S4096x1) broadcasts_S4096x1_S4096x128 (ix2 p q)
            - Ideal.ofBits .f32 0x40000000#32
              * matmul dot_S4096x32_S32x128_S4096x128_1_0_0_1_n_n none (truncf .bf16 x0 bitsLt_bf16_f32)
                  (truncf .bf16 (shapeCast S32x128 x1 shapeCasts_S32x128_S32x128) bitsLt_bf16_f32)
                  (constant S4096x128 .f32 0x00000000#32) (ix2 p q)
            + broadcastTo S4096x128 (shapeCast S1x128 x2 shapeCasts_S1x128_S1x128) broadcasts_S1x128_S4096x128 (ix2 p q))
          (Ideal.ofBits .f32 0x00000000#32))
      * broadcastTo S4096x128 (shapeCast S1x128 x3 shapeCasts_S1x128_S1x128) broadcasts_S1x128_S4096x128 (ix2 p q)) = _
  rw [sqLen_laid, cross_apply, row_laid, row_laid]

/-- The stored entry is the layer's: if row `p` of the block is row `r` of the points `X`, the second operand is the
    centres `C` transposed, the first row holds the zero word plus the centres' squared lengths and the second row the
    inverse variances of `L`, then the body's entry at `(p, q)` is `rbf X C L` at `(r, q)`. Only the zero word is
    evaluated: `0 + t = t` and `0 - y = -y`. -/
theorem entry_eq_rbf {n : ℕ} (X : Mat n 32) (C : Mat 128 32) (L : Row 128)
    (x0 : Vec Ideal S4096x32 .f32) (x1 : Vec Ideal S32x128 .f32) (x2 x3 : Vec Ideal S1x128 .f32)
    (r : Fin n) (p : Fin 4096) (q : Fin 128)
    (h0 : ∀ k : Fin 32, x0 (ix2 p k) = X (ix2 r k))
    (h1 : ∀ (k : Fin 32) (q' : Fin 128), x1 (ix2 k q') = C (ix2 q' k))
    (h2 : x2 (ix2 (0 : Fin 1) q) = Ideal.ofBits .f32 0x00000000#32 + sqLen C q)
    (h3 : x3 (ix2 (0 : Fin 1) q) = invVar L q) :
    k0_pay1 (F := Ideal) x0 x1 x2 x3 (ix2 p q) = rbf X C L (ix2 r q) := by
  rw [payload_apply, rbf_apply, h2, h3, zero_word_add, zero_word_sub, sqLen_congr x0 X p r h0,
    prodRow_transposed x0 x1 C h1 p q, prodRowT_congr x0 X C C p r q q h0 (fun _ => rfl)]
  rfl

end Cert.KernelIdeal.Body

end
-- ==== Proof.KernelHost.lean ====
/-
  What the kernel's region finds in the three arrays the host operations prepare for it.

  Before the region the program transposes the centres into `[32, 128]`, sums the squares of each centre's row (a host
  sum started from the zero word) and sets the 128 sums as a row `[1, 128]`, and sets `exp (-2 · ls)` as a row
  `[1, 128]`. Read at an index:

  * the transposed centres at `(k, q)` are the centres at `(q, k)`;
  * the row of squared lengths at `(0, q)` is `0 + ‖c_q‖²`;
  * the row of inverse variances at `(0, q)` is `exp (-2 · ls_q)`.
-/
import proofs.«174859_j84808424227154_1_alg».proof.Proof.Gen.KernelIdeal.Frame
import Idealize.ShloMosaic.Lib.StableHlo.Run
import Idealize.ShloMosaic.Lib.ValueLayout
import proofs.«174859_j84808424227154_1_alg».proof.Proof.RbfSpec

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx
open Cert.RadialBasis Cert.DenseLayer

/-- A host sum over the second axis of an `[a, b]` matrix, at row `p` at the ideal values: the initial value plus
    the sum over the row's `b` entries. -/
theorem hostReduceAdd_rows_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (lift_rows h p k))

variable (m : (ℓ : Loc nD τ sig) → Buf (Elt Ideal) ℓ)

/-- The first window's array is the centres transposed. -/
theorem V_centresT (c : Dev nD) :
    (V m c main_v0 : S32x128.Idx → EReal)
      = transpose S32x128 [1, 0] (m ((c : Thread nD τ).loc main_arg1)) transposes_S128x32_S32x128_1_0 := by
  dsimp only [Gen.V, Gen.hostOps0]; after_results

/-- At `(k, q)` it holds the centre `q`'s coordinate `k`. -/
theorem centresT_apply (c : Dev nD) (k : Fin 32) (q : Fin 128) :
    (V m c main_v0 : S32x128.Idx → EReal) (ix2 k q)
      = (m ((c : Thread nD τ).loc main_arg1) : S128x32.Idx → EReal) (ix2 q k) := by
  rw [V_centresT]
  exact transpose_ix2_apply _ _ k q

/-- The second window's array is the row of the centres' sums of squares. -/
theorem V_sqLens (c : Dev nD) :
    (V m c main_v3 : S1x128.Idx → EReal)
      = shapeCast S1x128 (Host.reduceAdd (mulf (m ((c : Thread nD τ).loc main_arg1)) (m ((c : Thread nD τ).loc main_arg1)))
          (constant (F := Ideal) S_ .f32 0x00000000#32) reducesTo_S128x32_S128_d1 h_S_) shapeCasts_S128_S1x128 := by
  dsimp only [Gen.V, Gen.hostOps0]; after_results; rfl

/-- At `(0, q)` it holds the zero word plus the squared length of centre `q`. -/
theorem sqLens_apply (c : Dev nD) (q : Fin 128) :
    (V m c main_v3 : S1x128.Idx → EReal) (ix2 (0 : Fin 1) q)
      = Ideal.ofBits .f32 0x00000000#32
        + sqLen (a := 128) (K := 32) (m ((c : Thread nD τ).loc main_arg1)) q := by
  rw [V_sqLens, shapeCast_a_1a_apply, hostReduceAdd_rows_apply _ _ _ (by decide)]
  rfl

/-- The third window's array is the row of inverse variances. -/
theorem V_invVars (c : Dev nD) :
    (V m c main_v7 : S1x128.Idx → EReal)
      = shapeCast S1x128 (Host.exp (mulf (broadcastInDim S128 ![] bcast_S_S128 (constant (F := Ideal) S_ .f32 0xC0000000#32))
          (m ((c : Thread nD τ).loc main_arg2)))) shapeCasts_S128_S1x128 := by
  dsimp only [Gen.V, Gen.hostOps0]; after_results; rfl

/-- At `(0, q)` it holds the inverse variance of centre `q`. -/
theorem invVars_apply (c : Dev nD) (q : Fin 128) :
    (V m c main_v7 : S1x128.Idx → EReal) (ix2 (0 : Fin 1) q)
      = invVar (N := 128) (m ((c : Thread nD τ).loc main_arg2)) q := by
  rw [V_invVars, shapeCast_a_1a_apply]
  rfl

end Cert.KernelIdeal.HostPrefix

end
-- ==== Proof.KernelValue.lean ====
/-
  The kernel's result array is the radial-basis layer of the argument arrays.

  The grid has 256 points; point `t` is handed rows `4096·t … 4096·t + 4095` of the points, the whole transposed
  centres and the two rows of per-centre numbers, and writes back rows `4096·t … 4096·t + 4095` of the result. The entry
  it stores at `(p, q)` of its block is the layer's entry at `(4096·t + p, q)` (`entry_eq_rbf`, with the host
  operations' arrays read at an index), so what it writes back is block `t` of the layer; the 256 blocks of 4096 rows
  cover all 1048576 rows (row `r` lies in block `r / 4096`), so the array ends holding the layer.
-/
import proofs.«174859_j84808424227154_1_alg».proof.Proof.Gen.KernelIdeal.Value
import proofs.«174859_j84808424227154_1_alg».proof.Proof.KernelEntry
import proofs.«174859_j84808424227154_1_alg».proof.Proof.KernelHost

noncomputable section

namespace Cert.KernelIdeal.RbfValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.RadialBasis Cert.DenseLayer Cert.DenseRows Cert.KernelIdeal.Body Cert.KernelIdeal.HostPrefix

variable (m : (ℓ : Loc nD τ sig) → Buf (Elt Ideal) ℓ) (ρ : Dev nD → PrngReg)

/-- The layer of the three argument arrays as launched. -/
abbrev layer (c : Dev nD) : S1048576x128.Idx → EReal :=
  rbf (a := 1048576) (K := 32) (N := 128) (m ((c : Thread nD τ).loc main_arg0)) (m ((c : Thread nD τ).loc main_arg1))
    (m ((c : Thread nD τ).loc main_arg2))

theorem origin : (![0, 0] : Fin 2 → Nat) = fun _ => 0 := funext fun a => by fin_cases a <;> rfl

/-- The printed index maps over the 256 points: the points' window and the result's window sit at block `t` of
    their first axis, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer. -/
theorem flushed_eq (c : Dev nD) (t : Fin cfg0.N) :
    (dats m 0 c).flushed 4 t = ((cfg0.win 4).blk t).view.read (Elt Ideal) (layer m c) := by
  rw [flushed4]
  unfold out0_4
  rw [View.canon_unit_zero origin]
  simp only [View.ld_unit_zero (S := S4096x32) origin, View.ld_unit_zero (S := S32x128) origin,
    View.ld_unit_zero (S := S1x128) origin]
  obtain ⟨e00, e01, e10, e11, e20, e21, e30, e31, e40, e41⟩ := idx_facts t
  have hN : cfg0.N = 256 := N_0
  have ht : t.val < 256 := hN ▸ t.isLt
  funext j
  have hj0 : (j 0).val < 4096 := (j 0).isLt
  have hj1 : (j 1).val < 128 := (j 1).isLt
  show k0_pay1 (F := Ideal) (iblk m c 0 t) (iblk m c 1 t) (iblk m c 2 t) (iblk m c 3 t) j
    = layer m c (((cfg0.win 4).blk t).view.emb j)
  have hemb : ((cfg0.win 4).blk t).view.emb j
      = ix2 (⟨t.val * 4096 + (j 0).val, by omega⟩ : Fin 1048576) (⟨(j 1).val, hj1⟩ : Fin 128) := by
    funext a; apply Fin.ext
    match a with
    | ⟨0, _⟩ => show win0_4.index t (0 : Fin 2) * 4096 + 1 * (j 0).val = t.val * 4096 + (j 0).val; omega
    | ⟨1, _⟩ => show win0_4.index t (1 : Fin 2) * 128 + 1 * (j 1).val = (j 1).val; omega
  rw [hemb]
  refine (congrArg (k0_pay1 (F := Ideal) (iblk m c 0 t) (iblk m c 1 t) (iblk m c 2 t) (iblk m c 3 t))
    (eq_ix2 (n0 := 4096) (n1 := 128) j)).trans ?_
  refine entry_eq_rbf _ _ _ _ _ _ _ _ (j 0) (j 1) ?_ ?_ ?_ ?_
  · intro k
    show V m c main_arg0 (((cfg0.win 0).blk t).view.emb (ix2 (j 0) k)) = _
    rw [V_main_arg0]
    refine congrArg (m ((c : Thread nD τ).loc main_arg0)) (funext fun a => Fin.ext ?_)
    match a with
    | ⟨0, _⟩ => show win0_0.index t (0 : Fin 2) * 4096 + 1 * (j 0).val = t.val * 4096 + (j 0).val; omega
    | ⟨1, _⟩ => show win0_0.index t (1 : Fin 2) * 32 + 1 * k.val = k.val; omega
  · intro k q'
    show V m c main_v0 (((cfg0.win 1).blk t).view.emb (ix2 k q')) = _
    refine Eq.trans ?_ (centresT_apply m c k q')
    refine congrArg (V m c main_v0) (funext fun a => Fin.ext ?_)
    match a with
    | ⟨0, _⟩ => show win0_1.index t (0 : Fin 2) * 32 + 1 * k.val = k.val; omega
    | ⟨1, _⟩ => show win0_1.index t (1 : Fin 2) * 128 + 1 * q'.val = q'.val; omega
  · show V m c main_v3 (((cfg0.win 2).blk t).view.emb (ix2 (0 : Fin 1) (j 1))) = _
    refine Eq.trans ?_ (sqLens_apply m c (j 1))
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 128 + 1 * (j 1).val = (j 1).val; omega
  · show V m c main_v7 (((cfg0.win 3).blk t).view.emb (ix2 (0 : Fin 1) (j 1))) = _
    refine Eq.trans ?_ (invVars_apply m c (j 1))
    refine congrArg (V m c main_v7) (funext fun a => Fin.ext ?_)
    match a with
    | ⟨0, _⟩ => show win0_3.index t (0 : Fin 2) * 1 + 1 * 0 = 0; omega
    | ⟨1, _⟩ => show win0_3.index t (1 : Fin 2) * 128 + 1 * (j 1).val = (j 1).val; omega

/-- An index of the result array is in point `t`'s block iff each coordinate is in the block's range on its axis. -/
theorem mem_blk (t : Fin cfg0.N) (i : S1048576x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v8).slice (win0_4.rect t)).set ↔ _
  rw [View.set_slice_whole, Rect.mem_set_unit]
  exact Iff.rfl

/-- Every index of the result array lies in some point's block: row `r` in the block of point `r / 4096`. -/
theorem cover (i : S1048576x128.Idx) :
    ∃ t : Fin cfg0.N, (cfg0.win 4).flush t = true ∧ i ∈ ((cfg0.win 4).blk t).view.set := by
  have hi0 : (i 0).val < 1048576 := (i 0).isLt
  have hi1 : (i 1).val < 128 := (i 1).isLt
  have hN : cfg0.N = 256 := N_0
  obtain ⟨t, ht⟩ : ∃ t : Fin cfg0.N, t.val = (i 0).val / 4096 := ⟨⟨(i 0).val / 4096, by rw [hN]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    omega
  | ⟨1, _⟩ =>
    show win0_4.index t (1 : Fin 2) * 128 ≤ (i 1).val ∧ (i 1).val < win0_4.index t (1 : Fin 2) * 128 + 128
    omega

/-- THE ARRAY after the run is the layer of the argument arrays. -/
theorem final (c : Dev nD) : (dats m 0 c).arrAt 4 cfg0.N = layer m c :=
  (dats m 0 c).arrAt_eq_of_cover 4 (layer m c) (fun t _ => flushed_eq m c t) cover

/-- The kernel's run with the result array named: it ends holding the layer, the arguments unchanged. -/
theorem run : θ_run defs (onTc (τ := τ) (main (F := Ideal))) ⟨m, fun _ => 0, ρ⟩ fun r => ∀ c : Dev nD,
      r.2.mem ((c : Thread nD τ).loc main_v8) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RbfValue

end
-- ==== Proof.lean ====
/-
  A layer of Gaussian radial basis functions: a pipelined kernel against its plain reference.

  Both programs compute, for points `x : [1048576, 32]`, centres `c : [128, 32]` and log-widths `ls : [128]`,

      out (r, q) = exp (-(max (‖x_r‖² - 2 · ⟨x_r, c_q⟩ + ‖c_q‖²) 0) · exp (-2 · ls_q)).

  The kernel prepares on the host the centres transposed, the row of the centres' squared lengths and the row of
  inverse variances, then runs 256 grid points of 4096 rows each: a row sum of squares, one matrix product of the block
  with the transposed centres into a zero accumulator, and the pointwise tail, whose negation is spelt `0 - y`. The
  reference takes the inner products by one contraction along the second axis of both operands and negates directly.
  On the extended reals the two agree entry by entry with no appeal to finiteness: a contraction with the transposed
  matrix is the contraction with the rows, a sum started from zero is the sum, and `0 - y = -y` at the infinities too;
  the changes of float format inside the kernel are the identity.

  `RbfSpec` states the layer; `ReferenceRbf` reads the reference's run as the layer; `KernelEntry` reads one stored
  entry of the kernel body, `KernelHost` the arrays the host operations prepare, and `KernelValue` puts the 256 blocks
  together into the whole result array. The three frames are the programs' runs with the results dropped, and the
  idealization rewrote no operation.
-/
import proofs.«174859_j84808424227154_1_alg».proof.Defs
import proofs.«174859_j84808424227154_1_alg».proof.Proof.Gen.Kernel
import proofs.«174859_j84808424227154_1_alg».proof.Proof.Gen.Kernel.Skeleton
import proofs.«174859_j84808424227154_1_alg».proof.Proof.Gen.Kernel.Launch
import proofs.«174859_j84808424227154_1_alg».proof.Proof.Gen.Kernel.Points
import proofs.«174859_j84808424227154_1_alg».proof.Proof.Gen.Kernel.Frame
import proofs.«174859_j84808424227154_1_alg».proof.Proof.Gen.KernelIdeal
import proofs.«174859_j84808424227154_1_alg».proof.Proof.Gen.KernelIdeal.Skeleton
import proofs.«174859_j84808424227154_1_alg».proof.Proof.Gen.KernelIdeal.Launch
import proofs.«174859_j84808424227154_1_alg».proof.Proof.Gen.KernelIdeal.Points
import proofs.«174859_j84808424227154_1_alg».proof.Proof.Gen.KernelIdeal.Frame
import proofs.«174859_j84808424227154_1_alg».proof.Proof.Gen.ReferenceIdeal
import proofs.«174859_j84808424227154_1_alg».proof.Proof.Gen.Pre_finite_inputs
import proofs.«174859_j84808424227154_1_alg».proof.Proof.Gen.KernelIdeal.Value
import proofs.«174859_j84808424227154_1_alg».proof.Proof.Gen.ReferenceIdeal.Run
import proofs.«174859_j84808424227154_1_alg».proof.Proof.Gen.ReferenceIdeal.Read
import proofs.«174859_j84808424227154_1_alg».proof.Proof.ReferenceRbf
import proofs.«174859_j84808424227154_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values the kernel's result array ends at the layer of its arguments (`KernelValue`), and the
    reference's at the same layer of arguments that agree with them (`ReferenceRbf`). -/
theorem algebraic : Cert.algebraic_KernelIdeal_ReferenceIdeal := by
  intro m ρ m' ρ' _ hagree
  refine ⟨fun c => Cert.KernelIdeal.RbfValue.layer m c, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
